-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S200000x256 : Shape := ⟨2, ![200000, 256]⟩
abbrev S1000x256 : Shape := ⟨2, ![1000, 256]⟩
abbrev S50000 : Shape := ⟨1, ![50000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : IVec S1000000 32) (main_arg1 : FVec F S200000x256 .f32) (main_arg2 : FVec F S1000x256 .f32) (main_arg3 : IVec S50000 32) (main_arg4 : IVec S50000 32) : IVec S_ 1 :=
  let main_v0 : FVec F S200000x256 .f32 := Host.absf main_arg1
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S1000x256 .f32 := Host.absf main_arg2
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg0 main_v9
  let main_c_3 : IVec S_ 32 := constantI S_ 32 1000#32
  let main_v11 : IVec S1000000 32 := broadcastInDim S1000000 ![] bcast_S_S1000000 main_c_3
  let main_v12 : IVec S1000000 1 := cmpi .slt main_arg0 main_v11
  let main_v13 : IVec S1000000 1 := andi main_v10 main_v12
  let main_c_4 : IVec S_ 1 := constantI S_ 1 1#1
  let main_v14 : IVec S_ 1 := (fun x v => Host.reduce IntOp.andi x v reducesTo_S1000000_S_d0 h_S_) main_v13 main_c_4
  let main_v15 : IVec S_ 1 := andi main_v8 main_v14
  main_v15
-- ==== Kernel.lean ====
abbrev S1000000 : Shape := ⟨1, ![1000000]⟩
abbrev S200000x256 : Shape := ⟨2, ![200000, 256]⟩
abbrev S1000x256 : Shape := ⟨2, ![1000, 256]⟩
abbrev S50000 : Shape := ⟨1, ![50000]⟩
abbrev S_ : Shape := ⟨0, ![]⟩
abbrev S50000x1 : Shape := ⟨2, ![50000, 1]⟩
abbrev S50000x256 : Shape := ⟨2, ![50000, 256]⟩
abbrev S1001472 : Shape := ⟨1, ![1001472]⟩
abbrev S1000000x256 : Shape := ⟨2, ![1000000, 256]⟩
abbrev S2048 : Shape := ⟨1, ![2048]⟩
abbrev S2048x256 : Shape := ⟨2, ![2048, 256]⟩
abbrev S2048x1 : Shape := ⟨2, ![2048, 1]⟩
abbrev S2048x1000 : Shape := ⟨2, ![2048, 1000]⟩

abbrev nBuf : Space → Nat
  | .hbm => 27
  | .vmem => 6
  | .smem => 0
  | _ => 0

abbrev bufTy : (tb : Table) → Fin (tcTables nBuf tb) → BufTy
  | .hbm, ⟨0, _⟩ => ⟨S1000000, .i32⟩
  | .hbm, ⟨1, _⟩ => ⟨S200000x256, .f32⟩
  | .hbm, ⟨2, _⟩ => ⟨S1000x256, .f32⟩
  | .hbm, ⟨3, _⟩ => ⟨S50000, .i32⟩
  | .hbm, ⟨4, _⟩ => ⟨S50000, .i32⟩
  | .hbm, ⟨5, _⟩ => ⟨S_, .i32⟩
  | .hbm, ⟨6, _⟩ => ⟨S50000, .i32⟩
  | .hbm, ⟨7, _⟩ => ⟨S50000, .i1⟩
  | .hbm, ⟨8, _⟩ => ⟨S_, .i32⟩
  | .hbm, ⟨9, _⟩ => ⟨S50000, .i32⟩
  | .hbm, ⟨10, _⟩ => ⟨S50000, .i32⟩
  | .hbm, ⟨11, _⟩ => ⟨S50000, .i32⟩
  | .hbm, ⟨12, _⟩ => ⟨S50000x1, .i32⟩
  | .hbm, ⟨13, _⟩ => ⟨S50000x256, .f32⟩
  | .hbm, ⟨14, _⟩ => ⟨S_, .f32⟩
  | .hbm, ⟨15, _⟩ => ⟨S1000x256, .f32⟩
  | .hbm, ⟨16, _⟩ => ⟨S50000x1, .i32⟩
  | .hbm, ⟨17, _⟩ => ⟨S1000x256, .f32⟩
  | .hbm, ⟨18, _⟩ => ⟨S1000x256, .f32⟩
  | .hbm, ⟨19, _⟩ => ⟨S_, .i32⟩
  | .hbm, ⟨20, _⟩ => ⟨S_, .i32⟩
  | .hbm, ⟨21, _⟩ => ⟨S1001472, .i32⟩
  | .hbm, ⟨22, _⟩ => ⟨S1000x256, .bf16⟩
  | .hbm, ⟨23, _⟩ => ⟨S1000x256, .f32⟩
  | .hbm, ⟨24, _⟩ => ⟨S1000x256, .f32⟩
  | .hbm, ⟨25, _⟩ => ⟨S1000x256, .bf16⟩
  | .hbm, ⟨26, _⟩ => ⟨S1000000x256, .f32⟩
  | .local _ .vmem, ⟨0, _⟩ => ⟨S2048, .i32⟩
  | .local _ .vmem, ⟨1, _⟩ => ⟨S2048, .i32⟩
  | .local _ .vmem, ⟨2, _⟩ => ⟨S1000x256, .bf16⟩
  | .local _ .vmem, ⟨3, _⟩ => ⟨S1000x256, .bf16⟩
  | .local _ .vmem, ⟨4, _⟩ => ⟨S2048x256, .f32⟩
  | .local _ .vmem, ⟨5, _⟩ => ⟨S2048x256, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![489], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S1000x256 : S_.BroadcastsInDim S1000x256 (![] : Fin 0 → Fin S1000x256.rank)
  pads_S1000000_S1001472_014720 : S1000000.Pads (![0] : Fin 1 → Nat) ![1472] ![0] S1001472
  h_S_ : 0 < S_.numel
  bitsLt_bf16_f32 : FTy.bits .bf16 < FTy.bits .f32
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  iota_S2048x1000_d1_w32 : S2048x1000.Iotas .tc 32 [1]
  broadcasts_S2048x1_S2048x1000 : S2048x1.Broadcasts S2048x1000
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S2048x256_S2048x256_0_0 : ∀ a, (![0, 0] : Fin 2 → Nat) a + S2048x256.size a ≤ S2048x256.size a
  h_S2048x256 : 0 < S2048x256.numel
  gather_S200000x256_S50000x1_S50000x256_1_0_n_n_0_1_1256_wf : GatherDims.WF S200000x256 S50000x1 S50000x256 [1] [0] [] [0] [] 1 ![1, 256]
  scatter_S1000x256_S50000x1_S50000x256_1_0_0_1_wf : ScatterDims.WF S1000x256 S50000x1 S50000x256 [1] [0] [0] 1
  dot_S2048x1000_S1000x256_S2048x256_1_0_0_1_n_n_wf : DotDims.WF S2048x1000 S1000x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1001472.size a
  hwx0_0 : ∀ i : grid0.Coords, EltTy.bits .i32 = 32 ∨ (Rect.block (s := S1001472) S2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S1000x256.size a
  hwx0_1 : ∀ i : grid0.Coords, EltTy.bits .bf16 = 32 ∨ (Rect.block (s := S1000x256) S1000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S1000x256.size a
  hwx0_2 : ∀ i : grid0.Coords, EltTy.bits .bf16 = 32 ∨ (Rect.block (s := S1000x256) S1000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x256.size a < S1000000x256.size a
  hwx0_3 : ∀ i : grid0.Coords, EltTy.bits .f32 = 32 ∨ (Rect.unit (s := S1000000x256) (fun a => cc0_transform_3 i a * S2048x256.size a) (fun a => (Pipeline.Clip.of (cc0_transform_3 i a) (S2048x256.size a) (S1000000x256.size a)).extent (S2048x256.size a)) fun a => Pipeline.Clip.inb (Pipeline.Clip.ok_of (hstart0_3 i a))).WholeWords (EltTy.packing .f32)
  hwxs0_3 : ∀ i : grid0.Coords, EltTy.bits .f32 = 32 ∨ (Rect.unit (s := S2048x256) (fun _ => 0) (fun a => (Pipeline.Clip.of (cc0_transform_3 i a) (S2048x256.size a) (S1000000x256.size a)).extent (S2048x256.size a)) fun a => (Nat.zero_add _).trans_le (Pipeline.Clip.extent_le (Pipeline.Clip.ok_of (hstart0_3 i a)))).WholeWords (EltTy.packing .f32)

variable [Facts₀]

def gather_S200000x256_S50000x1_S50000x256_1_0_n_n_0_1_1256 : GatherDims S200000x256 S50000x1 S50000x256 where
  offsetDims := [1]
  collapsedSliceDims := [0]
  operandBatchingDims := []
  startIndicesBatchingDims := []
  startIndexMap := [0]
  indexVectorDim := 1
  sliceSizes := ![1, 256]
  wf := gather_S200000x256_S50000x1_S50000x256_1_0_n_n_0_1_1256_wf
def scatter_S1000x256_S50000x1_S50000x256_1_0_0_1 : ScatterDims S1000x256 S50000x1 S50000x256 where
  updateWindowDims := [1]
  insertedWindowDims := [0]
  scatterDimsToOperandDims := [0]
  indexVectorDim := 1
  wf := scatter_S1000x256_S50000x1_S50000x256_1_0_0_1_wf
def dot_S2048x1000_S1000x256_S2048x256_1_0_0_1_n_n : DotDims S2048x1000 S1000x256 S2048x256 where
  lhsContracting := [1]
  rhsContracting := [0]
  lhsNonContracting := [0]
  rhsNonContracting := [1]
  lhsBatch := []
  rhsBatch := []
  wf := dot_S2048x1000_S1000x256_S2048x256_1_0_0_1_n_n_wf

abbrev win0_0 : Pipeline.Window sig grid0 :=
  Pipeline.Window.ofSpec (Memref.whole main_v11) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v16) S2048x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000 : Shape := ⟨1, ![1000000]⟩
abbrev S200000x256 : Shape := ⟨2, ![200000, 256]⟩
abbrev S1000x256 : Shape := ⟨2, ![1000, 256]⟩
abbrev S50000 : Shape := ⟨1, ![50000]⟩
abbrev S_ : Shape := ⟨0, ![]⟩
abbrev S50000x1 : Shape := ⟨2, ![50000, 1]⟩
abbrev S50000x256 : Shape := ⟨2, ![50000, 256]⟩
abbrev S1000000x1 : Shape := ⟨2, ![1000000, 1]⟩
abbrev S1000000x256 : Shape := ⟨2, ![1000000, 256]⟩

abbrev nBuf : Space → Nat
  | .hbm => 37
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S200000x256, .f32⟩
  | .hbm, ⟨2, _⟩ => ⟨S1000x256, .f32⟩
  | .hbm, ⟨3, _⟩ => ⟨S50000, .i32⟩
  | .hbm, ⟨4, _⟩ => ⟨S50000, .i32⟩
  | .hbm, ⟨5, _⟩ => ⟨S_, .i32⟩
  | .hbm, ⟨6, _⟩ => ⟨S50000, .i32⟩
  | .hbm, ⟨7, _⟩ => ⟨S50000, .i1⟩
  | .hbm, ⟨8, _⟩ => ⟨S_, .i32⟩
  | .hbm, ⟨9, _⟩ => ⟨S50000, .i32⟩
  | .hbm, ⟨10, _⟩ => ⟨S50000, .i32⟩
  | .hbm, ⟨11, _⟩ => ⟨S50000, .i32⟩
  | .hbm, ⟨12, _⟩ => ⟨S50000x1, .i32⟩
  | .hbm, ⟨13, _⟩ => ⟨S50000x256, .f32⟩
  | .hbm, ⟨14, _⟩ => ⟨S_, .f32⟩
  | .hbm, ⟨15, _⟩ => ⟨S1000x256, .f32⟩
  | .hbm, ⟨16, _⟩ => ⟨S50000x1, .i32⟩
  | .hbm, ⟨17, _⟩ => ⟨S1000x256, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x256, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x256, .f32⟩
  | .hbm, ⟨36, _⟩ => ⟨S1000000x256, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S1000x256 : S_.BroadcastsInDim S1000x256 (![] : Fin 0 → Fin S1000x256.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  gather_S200000x256_S50000x1_S50000x256_1_0_n_n_0_1_1256_wf : GatherDims.WF S200000x256 S50000x1 S50000x256 [1] [0] [] [0] [] 1 ![1, 256]
  scatter_S1000x256_S50000x1_S50000x256_1_0_0_1_wf : ScatterDims.WF S1000x256 S50000x1 S50000x256 [1] [0] [0] 1
  gather_S1000x256_S1000000x1_S1000000x256_1_0_n_n_0_1_1256_wf : GatherDims.WF S1000x256 S1000000x1 S1000000x256 [1] [0] [] [0] [] 1 ![1, 256]

variable [Facts₀]

def gather_S200000x256_S50000x1_S50000x256_1_0_n_n_0_1_1256 : GatherDims S200000x256 S50000x1 S50000x256 where
  offsetDims := [1]
  collapsedSliceDims := [0]
  operandBatchingDims := []
  startIndicesBatchingDims := []
  startIndexMap := [0]
  indexVectorDim := 1
  sliceSizes := ![1, 256]
  wf := gather_S200000x256_S50000x1_S50000x256_1_0_n_n_0_1_1256_wf
def scatter_S1000x256_S50000x1_S50000x256_1_0_0_1 : ScatterDims S1000x256 S50000x1 S50000x256 where
  updateWindowDims := [1]
  insertedWindowDims := [0]
  scatterDimsToOperandDims := [0]
  indexVectorDim := 1
  wf := scatter_S1000x256_S50000x1_S50000x256_1_0_0_1_wf
def gather_S1000x256_S1000000x1_S1000000x256_1_0_n_n_0_1_1256 : GatherDims S1000x256 S1000000x1 S1000000x256 where
  offsetDims := [1]
  collapsedSliceDims := [0]
  operandBatchingDims := []
  startIndicesBatchingDims := []
  startIndexMap := [0]
  indexVectorDim := 1
  sliceSizes := ![1, 256]
  wf := gather_S1000x256_S1000000x1_S1000000x256_1_0_n_n_0_1_1256_wf

class Facts : Prop extends Facts₀ where

variable [Facts]
-- ==== Proof.OneHotSum.lean ====
/-
  The algebra the one-hot product needs on the extended reals.

  A row of a one-hot matrix is `1` at one column `k₀` and `0` elsewhere, so its product with a column `f` is the sum
  `∑ k, e k * f k = f k₀`: on the extended reals `0 * x = 0` and `1 * x = x` for every `x`, infinite or not, and the
  sum has one term that is not zero. This needs no finiteness.

  The two-pass splitting `x = hi + lo` with `hi = x` and `lo = x - hi` does: `x - x = 0` holds for a real `x` and fails
  at the infinities. An extended real is REAL when it is the image of a real number; zero is real, a sum of two reals is
  real, and so is a finite sum of reals.
-/
import Idealize.ShloMosaic.PureOps.Ideal

namespace Cert.OneHotSum

open scoped BigOperators

/-- A one-hot row times a column picks the column's entry at the hot position. -/
theorem sum_onehot_mul {ι : Type} [Fintype ι] [DecidableEq ι] (k₀ : ι) (e f : ι → EReal)
    (h₁ : e k₀ = 1) (h₀ : ∀ k, k ≠ k₀ → e k = 0) : ∑ k, e k * f k = f k₀ := by
  rw [Finset.sum_eq_single k₀ (fun k _ hk => by rw [h₀ k hk, zero_mul])
    (fun h => absurd (Finset.mem_univ k₀) h), h₁, one_mul]

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is real. -/
theorem isReal_sum {ι : Type} (s : Finset ι) (f : ι → EReal) (h : ∀ i ∈ s, IsReal (f i)) : IsReal (∑ i ∈ s, f i) :=
  Finset.sum_induction f IsReal (fun _ _ => IsReal.add) isReal_zero h

/-- A real minus itself is zero. -/
theorem IsReal.sub_self {x : EReal} (hx : IsReal x) : x - x = 0 := by
  obtain ⟨a, rfl⟩ := hx
  rw [← EReal.coe_sub, _root_.sub_self, EReal.coe_zero]

/-- An extended real strictly between the infinities in absolute value is real. -/
theorem isReal_of_abs_lt_top {x : EReal} (h : max x (-x) < ⊤) : IsReal x := by
  induction x using EReal.rec with
  | bot => simp at h
  | coe r => exact ⟨r, rfl⟩
  | top => simp at h

end Cert.OneHotSum
-- ==== Proof.PreDecode.lean ====
/-
  What the precondition says, entry by entry.

  The precondition is the conjunction of three `all`s: every entry of the attribute table is finite in absolute value,
  every entry of the edge-type table is, and every edge's type id lies in `[0, 1000)`. Read at an element: the two
  tables hold real numbers, and every type id, read as an unsigned word, is below 1000.
-/
import proofs.«411690_j30623116821332_3_alg».proof.Proof.Gen.Pre_finite_inputs
import proofs.«411690_j30623116821332_3_alg».proof.Proof.OneHotSum
import Idealize.ShloMosaic.Lib.ReduceAll
import Idealize.ShloMosaic.Lib.Affine
import Idealize.ShloMosaic.Lib.ValueIdx
import Idealize.ShloMosaic.PureOps.Ideal.Laws
import Idealize.ShloMosaic.Lib.StableHlo.Predicate

namespace Cert.PreDecode

open Idealize.ShloMosaic Cert.Pre_finite_inputs Cert.OneHotSum

instance : Subsingleton S_.Idx := ⟨fun a b => funext fun d => d.elim0⟩

theorem decode [Cert.Pre_finite_inputs.Facts] (a0 : IVec S1000000 32) (a1 : FVec Ideal S200000x256 .f32)
    (a2 : FVec Ideal S1000x256 .f32) (a3 a4 : IVec S50000 32)
    (h : fn (F := Ideal) a0 a1 a2 a3 a4 = fun _ => 1#1) :
    (∀ i, IsReal (a1 i)) ∧ (∀ i, IsReal (a2 i)) ∧ (∀ n, (a0 n).toNat < 1000) := by
  have h0 := congrFun h ValueIdx.ix0
  dsimp only [fn] at h0
  change IntOp.andi (IntOp.andi _ _) _ = 1#1 at h0
  obtain ⟨h12, h3⟩ := IntOp.andi_eq_one.1 h0
  obtain ⟨h1, h2⟩ := IntOp.andi_eq_one.1 h12
  have htop : Ideal.ofBits .f32 0x7F800000#32 = (⊤ : EReal) := by simp [Ideal.ofBits, Ideal.ieee]
  refine ⟨fun i => ?_, fun i => ?_, fun n => ?_⟩
  · have e : Ideal.cmp .olt (max (a1 i) (-(a1 i))) (Ideal.ofBits .f32 0x7F800000#32) = 1#1 :=
      Host.reduce_andi_all _ _ _ _ _ h1 i
    rw [htop] at e
    exact isReal_of_abs_lt_top (of_decide_eq_true ((StableHlo.Predicate.ofBool_eq_one_iff _).1 e))
  · have e : Ideal.cmp .olt (max (a2 i) (-(a2 i))) (Ideal.ofBits .f32 0x7F800000#32) = 1#1 :=
      Host.reduce_andi_all _ _ _ _ _ h2 i
    rw [htop] at e
    exact isReal_of_abs_lt_top (of_decide_eq_true ((StableHlo.Predicate.ofBool_eq_one_iff _).1 e))
  · have e : IntOp.andi (IntOp.cmpi .sge (a0 n) 0#32) (IntOp.cmpi .slt (a0 n) 1000#32) = 1#1 :=
      Host.reduce_andi_all _ _ _ _ _ h3 n
    obtain ⟨ha, hb⟩ := IntOp.andi_eq_one.1 e
    have g1 : (0#32 : BitVec 32).toInt ≤ (a0 n).toInt := IntOp.cmpi_sge.1 ha
    have g2 : (a0 n).toInt < (1000#32 : BitVec 32).toInt := IntOp.cmpi_slt.1 hb
    have z0 : (0#32 : BitVec 32).toInt = 0 := by decide
    have z1 : (1000#32 : BitVec 32).toInt = 1000 := by decide
    rw [z0] at g1; rw [z1] at g2
    have hc := BitVec.toInt_eq_toNat_cond (a0 n)
    have hlt := (a0 n).isLt
    split at hc <;> omega

end Cert.PreDecode
-- ==== Proof.HostArrays.lean ====
/-
  What the kernel's launch finds in the three arrays its input windows stage.

  Before the launch the host computes the per-type attribute sums (a gather of attribute rows scattered-and-added by
  segment id), adds them to the edge-type table to form the COMBINED table, pads the type ids with zeros to a whole
  number of blocks, and splits the combined table in two: its narrowing `hi`, and the narrowing `lo` of what the
  narrowing lost, `combined - widen hi`. These are the arrays the launch stages, as terms of the arguments.
-/
import proofs.«411690_j30623116821332_3_alg».proof.Proof.Gen.KernelIdeal.Frame
import Idealize.ShloMosaic.Lib.StableHlo.Run

noncomputable section

namespace Cert.KernelIdeal.HostArrays

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The per-type attribute sums: attribute rows gathered at the (wrapped) attribute ids, added into their segments. -/
def segSums (c : Dev nD) : FVec F S1000x256 .f32 :=
  Host.scatterAdd scatter_S1000x256_S50000x1_S50000x256_1_0_0_1
    (broadcastInDim S1000x256 ![] bcast_S_S1000x256 (constant S_ .f32 0x00000000#32))
    (broadcastInDim S50000x1 ![0] bcast_S50000_S50000x1_0 (m ((c : Thread nD τ).loc main_arg4)))
    (Host.gather gather_S200000x256_S50000x1_S50000x256_1_0_n_n_0_1_1256 (m ((c : Thread nD τ).loc main_arg1))
      (broadcastInDim S50000x1 ![0] bcast_S50000_S50000x1_0
        (select (cmpi .slt (m ((c : Thread nD τ).loc main_arg3)) (broadcastInDim S50000 ![] bcast_S_S50000 (constantI S_ 32 0#32)))
          (addi (m ((c : Thread nD τ).loc main_arg3)) (broadcastInDim S50000 ![] bcast_S_S50000 (constantI S_ 32 200000#32)))
          (m ((c : Thread nD τ).loc main_arg3)))))

/-- The combined table: the edge-type table plus the per-type attribute sums. -/
def combined (c : Dev nD) : FVec F S1000x256 .f32 :=
  addf (m ((c : Thread nD τ).loc main_arg2)) (segSums m c)

/-- The staged ids: the type ids followed by 1472 zeros. -/
theorem V_ids (c : Dev nD) : (V m c main_v11 : S1001472.Idx → BitVec 32)
    = pad S1001472 ![0] ![1472] ![0] (m ((c : Thread nD τ).loc main_arg0)) (id (constantI S_ 32 0#32))
        pads_S1000000_S1001472_014720 h_S_ := by
  dsimp only [Gen.V]
  simp only [hostOps0, hostOps0_1, hostOps0_2, List.flatten_cons, List.flatten_nil, List.append_nil, List.cons_append,
    List.nil_append]
  after_results
  rfl

/-- The first staged table: the combined table narrowed. -/
theorem V_hi (c : Dev nD) : (V m c main_v12 : FVec F S1000x256 .bf16)
    = truncf .bf16 (combined m c) bitsLt_bf16_f32 := by
  dsimp only [Gen.V]
  simp only [hostOps0, hostOps0_1, hostOps0_2, List.flatten_cons, List.flatten_nil, List.append_nil, List.cons_append,
    List.nil_append]
  after_results
  rfl

/-- The second staged table: the narrowing of the combined table minus its narrowing widened back. -/
theorem V_lo (c : Dev nD) : (V m c main_v15 : FVec F S1000x256 .bf16)
    = truncf .bf16 (subf (combined m c) (extf .f32 (truncf .bf16 (combined m c) bitsLt_bf16_f32) bitsLt_bf16_f32))
        bitsLt_bf16_f32 := by
  dsimp only [Gen.V]
  simp only [hostOps0, hostOps0_1, hostOps0_2, List.flatten_cons, List.flatten_nil, List.append_nil, List.cons_append,
    List.nil_append]
  after_results
  rfl

end Cert.KernelIdeal.HostArrays

end
-- ==== Proof.CombinedReal.lean ====
/-
  The combined table holds real numbers when the two float inputs do.

  An entry of the combined table is an entry of the edge-type table plus an attribute sum. At the ideal values an
  attribute sum is the zero it starts from plus the exact sum of the gathered entries that land on it, and a gathered
  entry is an entry of the attribute table whatever the attribute id is (the gather clamps it into the table; a segment
  id outside the table only drops its entry from the sum). So each entry is a finite sum of reals.
-/
import proofs.«411690_j30623116821332_3_alg».proof.Proof.HostArrays
import proofs.«411690_j30623116821332_3_alg».proof.Proof.OneHotSum
import Idealize.ShloMosaic.Lib.ValueIdx
import Idealize.ShloMosaic.PureOps.Ideal.Laws

noncomputable section

namespace Cert.KernelIdeal.CombinedReal

open Cert.KernelIdeal Cert.KernelIdeal.Gen Cert.KernelIdeal.HostArrays
open Idealize.ShloMosaic Idealize.ShloMosaic.TcCoe Idealize.SL.Sem Idealize.ShloMosaic.ValueIdx
open Cert.OneHotSum

variable (m : (ℓ : Loc nD τ sig) → Buf (Elt Ideal) ℓ)

theorem combined_real (c : Dev nD)
    (h1 : ∀ i : S200000x256.Idx, IsReal ((m ((c : Thread nD τ).loc main_arg1) : FVec Ideal S200000x256 .f32) i))
    (h2 : ∀ i : S1000x256.Idx, IsReal ((m ((c : Thread nD τ).loc main_arg2) : FVec Ideal S1000x256 .f32) i))
    (j : S1000x256.Idx) : IsReal (combined m c j) := by
  unfold combined segSums
  rw [addf_apply]
  unfold Host.scatterAdd
  rw [Ideal.hostScatterAdd_def]
  unfold Ideal.hostScatterAdd Host.gather
  refine (h2 j).add (IsReal.add ?_ (isReal_sum _ _ fun u _ => h1 _))
  show IsReal (Ideal.ofBits .f32 0x00000000#32)
  rw [Ideal.ofBits_zero_f32]
  exact isReal_zero

end Cert.KernelIdeal.CombinedReal

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.Body.lean ====
/-
  The kernel body's arithmetic at one entry of its output block.

  The body builds, from a block of 2048 type ids, the 2048 × 1000 matrix whose entry `(p, k)` is `1` when column `k` is
  row `p`'s type id and `0` otherwise, and multiplies it with each of two resident 1000 × 256 tables, adding the two
  products. With the matrix product read as the sum over the one contracted axis, entry `(p, q)` of each product is
  `∑ k, e p k * table (k, q)`, a one-hot sum: it picks the table's row at the type id. So for a row whose type id is
  `k₀ < 1000` the body's result at `(p, q)` is the first table's entry `(k₀, q)` plus the second's.
-/
import proofs.«411690_j30623116821332_3_alg».proof.Proof.Gen.KernelIdeal.Skeleton
import proofs.«411690_j30623116821332_3_alg».proof.Proof.LibColumns
import proofs.«411690_j30623116821332_3_alg».proof.Proof.OneHotSum
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.Body

open Cert.KernelIdeal Cert.KernelIdeal.Gen
open Idealize.ShloMosaic Idealize.ShloMosaic.ValueIdx
open scoped BigOperators

/-! ## The product's operand indices, axis by axis -/

theorem lhs_0 (i : S2048x256.Idx) (c : dot_S2048x1000_S1000x256_S2048x256_1_0_0_1_n_n.contr.Idx) :
    (dot_S2048x1000_S1000x256_S2048x256_1_0_0_1_n_n.lhsIdx i c 0).val = (i 0).val := by
  unfold DotDims.lhsIdx
  rw [dif_neg (show ¬(0 : Fin S2048x1000.rank) ∈ dot_S2048x1000_S1000x256_S2048x256_1_0_0_1_n_n.lhsBatch by decide),
    dif_pos (show (0 : Fin S2048x1000.rank) ∈ dot_S2048x1000_S1000x256_S2048x256_1_0_0_1_n_n.lhsNonContracting by decide)]
  rfl

theorem lhs_1 (i : S2048x256.Idx) (c : dot_S2048x1000_S1000x256_S2048x256_1_0_0_1_n_n.contr.Idx) :
    (dot_S2048x1000_S1000x256_S2048x256_1_0_0_1_n_n.lhsIdx i c 1).val = (c ⟨0, by decide⟩).val :=
  dot_S2048x1000_S1000x256_S2048x256_1_0_0_1_n_n.lhsIdx_val_of_single rfl i c

theorem rhs_0 (i : S2048x256.Idx) (c : dot_S2048x1000_S1000x256_S2048x256_1_0_0_1_n_n.contr.Idx) :
    (dot_S2048x1000_S1000x256_S2048x256_1_0_0_1_n_n.rhsIdx i c 0).val = (c ⟨0, by decide⟩).val :=
  dot_S2048x1000_S1000x256_S2048x256_1_0_0_1_n_n.rhsIdx_val_of_single rfl i c

theorem rhs_1 (i : S2048x256.Idx) (c : dot_S2048x1000_S1000x256_S2048x256_1_0_0_1_n_n.contr.Idx) :
    (dot_S2048x1000_S1000x256_S2048x256_1_0_0_1_n_n.rhsIdx i c 1).val = (i 1).val := by
  unfold DotDims.rhsIdx
  rw [dif_neg (show ¬(1 : Fin S1000x256.rank) ∈ dot_S2048x1000_S1000x256_S2048x256_1_0_0_1_n_n.rhsBatch by decide),
    dif_pos (show (1 : Fin S1000x256.rank) ∈ dot_S2048x1000_S1000x256_S2048x256_1_0_0_1_n_n.rhsNonContracting by decide)]
  rfl

/-- The product into a zero accumulator, at `(p, q)`: the sum over the 1000 columns of the left operand's row `p`
    times the right operand's column `q`. -/
theorem matmul_apply (lhs : FVec Ideal S2048x1000 .bf16) (rhs : FVec Ideal S1000x256 .bf16) (p : Fin 2048) (q : Fin 256) :
    matmul dot_S2048x1000_S1000x256_S2048x256_1_0_0_1_n_n none lhs rhs (constant S2048x256 .f32 0x00000000#32) (ix2 p q)
      = ∑ k : Fin 1000, lhs (ix2 p k) * rhs (ix2 k q) := by
  show FloatOps.matmul dot_S2048x1000_S1000x256_S2048x256_1_0_0_1_n_n none lhs rhs (constant S2048x256 .f32 0x00000000#32) (ix2 p q) = _
  rw [Ideal.matmul_constant_zero_apply, ← Equiv.sum_comp (ValueIdx.contrEquiv1 dot_S2048x1000_S1000x256_S2048x256_1_0_0_1_n_n 1000 rfl rfl).symm]
  refine Finset.sum_congr rfl fun k _ => ?_
  have hk := ValueIdx.contrEquiv1_symm_val dot_S2048x1000_S1000x256_S2048x256_1_0_0_1_n_n 1000 rfl rfl k
  have el : dot_S2048x1000_S1000x256_S2048x256_1_0_0_1_n_n.lhsIdx (ix2 p q) ((ValueIdx.contrEquiv1 dot_S2048x1000_S1000x256_S2048x256_1_0_0_1_n_n 1000 rfl rfl).symm k) = ix2 p k :=
    funext fun a => Fin.ext (by
      match a with
      | ⟨0, _⟩ => exact lhs_0 _ _
      | ⟨1, _⟩ => exact (lhs_1 _ _).trans hk)
  have er : dot_S2048x1000_S1000x256_S2048x256_1_0_0_1_n_n.rhsIdx (ix2 p q) ((ValueIdx.contrEquiv1 dot_S2048x1000_S1000x256_S2048x256_1_0_0_1_n_n 1000 rfl rfl).symm k) = ix2 k q :=
    funext fun a => Fin.ext (by
      match a with
      | ⟨0, _⟩ => exact (rhs_0 _ _).trans hk
      | ⟨1, _⟩ => exact rhs_1 _ _)
  rw [el, er]

/-! ## The one-hot matrix -/

/-- The matrix the body builds from a block of type ids: `1` where the column number is the row's id, else `0`. -/
def onehot (x0 : Vec Ideal S2048 .i32) : FVec Ideal S2048x1000 .bf16 :=
  truncf .bf16
    (select
      (cmpi .eq (iota .tc S2048x1000 32 [1] iota_S2048x1000_d1_w32)
        (broadcastTo S2048x1000 (shapeCast S2048x1 (shapeCast S2048 x0 shapeCasts_S2048_S2048) shapeCasts_S2048_S2048x1)
          broadcasts_S2048x1_S2048x1000))
      (broadcast S2048x1000 (Scalar.ofBits .f32 0x3F800000#32))
      (broadcast S2048x1000 (Scalar.ofBits .f32 0x00000000#32)))
    bitsLt_bf16_f32

/-- Its entry `(p, k)`, as a select on "column `k` is row `p`'s id". -/
theorem onehot_apply (x0 : Vec Ideal S2048 .i32) (p : Fin 2048) (k : Fin 1000) :
    onehot x0 (ix2 p k) = Scalar.select (IntOp.cmpi .eq (BitVec.ofNat 32 k.val) (x0 (ix1 p))) (1 : EReal) 0 := by
  have hi : iota .tc S2048x1000 32 [1] iota_S2048x1000_d1_w32 (ix2 p k) = BitVec.ofNat 32 k.val :=
    iota_single_apply .tc S2048x1000 32 1 iota_S2048x1000_d1_w32 (ix2 p k)
  have hb : broadcastTo S2048x1000 (shapeCast S2048x1 (shapeCast S2048 x0 shapeCasts_S2048_S2048) shapeCasts_S2048_S2048x1)
      broadcasts_S2048x1_S2048x1000 (ix2 p k) = x0 (ix1 p) := by
    rw [Cert.Columns.broadcastTo_a1_ab_apply, Cert.Columns.shapeCast_a_a1_apply, shapeCast_self]
  show Scalar.select (IntOp.cmpi .eq (iota .tc S2048x1000 32 [1] iota_S2048x1000_d1_w32 (ix2 p k))
      (broadcastTo S2048x1000 (shapeCast S2048x1 (shapeCast S2048 x0 shapeCasts_S2048_S2048) shapeCasts_S2048_S2048x1)
        broadcasts_S2048x1_S2048x1000 (ix2 p k)))
    (Ideal.ofBits .f32 0x3F800000#32) (Ideal.ofBits .f32 0x00000000#32) = _
  rw [hi, hb, Ideal.ofBits_one_f32, Ideal.ofBits_zero_f32]

/-- A row whose id is `k₀ < 1000` is `1` at column `k₀` … -/
theorem onehot_hit (x0 : Vec Ideal S2048 .i32) (p : Fin 2048) (k₀ : Fin 1000) (hk : x0 (ix1 p) = BitVec.ofNat 32 k₀.val) :
    onehot x0 (ix2 p k₀) = 1 := by
  rw [onehot_apply, hk, IntOp.cmpi_eq.2 rfl, select_one]

/-- … and `0` at every other column: two numbers below 1000 that differ are different 32-bit words. -/
theorem onehot_miss (x0 : Vec Ideal S2048 .i32) (p : Fin 2048) (k₀ k : Fin 1000) (hk : x0 (ix1 p) = BitVec.ofNat 32 k₀.val)
    (hne : k ≠ k₀) : onehot x0 (ix2 p k) = 0 := by
  rw [onehot_apply, hk]
  have hw : ¬ IntOp.cmpi .eq (BitVec.ofNat 32 k.val) (BitVec.ofNat 32 k₀.val) = 1#1 := fun h => by
    have e := congrArg BitVec.toNat (IntOp.cmpi_eq.1 h)
    have h1 := k.isLt
    have h2 := k₀.isLt
    rw [BitVec.toNat_ofNat, BitVec.toNat_ofNat, Nat.mod_eq_of_lt (by omega), Nat.mod_eq_of_lt (by omega)] at e
    exact hne (Fin.ext e)
  rw [eq_zero_of_ne_one hw, select_zero]

/-! ## The payload at an entry -/

/-- The body's stored value is the sum of the two products of the one-hot matrix with the two tables. -/
theorem pay_eq (x0 : Vec Ideal S2048 .i32) (x1 x2 : Vec Ideal S1000x256 .bf16) :
    k0_pay1 (F := Ideal) x0 x1 x2
      = addf (matmul (φ₁ := .bf16) (φ₂ := .bf16) dot_S2048x1000_S1000x256_S2048x256_1_0_0_1_n_n none (onehot x0)
                (shapeCast S1000x256 x1 shapeCasts_S1000x256_S1000x256 : FVec Ideal S1000x256 .bf16)
                (constant S2048x256 .f32 0x00000000#32))
             (matmul (φ₁ := .bf16) (φ₂ := .bf16) dot_S2048x1000_S1000x256_S2048x256_1_0_0_1_n_n none (onehot x0)
                (shapeCast S1000x256 x2 shapeCasts_S1000x256_S1000x256 : FVec Ideal S1000x256 .bf16)
                (constant S2048x256 .f32 0x00000000#32)) := rfl

/-- For a row `p` of the block whose type id is `k₀ < 1000`, the stored value at `(p, q)` is the first table's entry
    `(k₀, q)` plus the second table's. -/
theorem pay_apply (x0 : Vec Ideal S2048 .i32) (x1 x2 : Vec Ideal S1000x256 .bf16) (p : Fin 2048) (q : Fin 256) (k₀ : Fin 1000)
    (hk : x0 (ix1 p) = BitVec.ofNat 32 k₀.val) :
    k0_pay1 (F := Ideal) x0 x1 x2 (ix2 p q) = x1 (ix2 k₀ q) + x2 (ix2 k₀ q) := by
  rw [pay_eq, addf_apply, matmul_apply, matmul_apply, shapeCast_self, shapeCast_self]
  rw [Cert.OneHotSum.sum_onehot_mul k₀ (fun k => onehot x0 (ix2 p k)) (fun k => x1 (ix2 k q))
      (onehot_hit x0 p k₀ hk) (fun k hne => onehot_miss x0 p k₀ k hk hne),
    Cert.OneHotSum.sum_onehot_mul k₀ (fun k => onehot x0 (ix2 p k)) (fun k => x2 (ix2 k q))
      (onehot_hit x0 p k₀ hk) (fun k hne => onehot_miss x0 p k₀ k hk hne)]

end Cert.KernelIdeal.Body

end
-- ==== Proof.Lookup.lean ====
/-
  The result both programs are shown to compute: an embedding lookup.

  Edge `n` has a type id, the `n`-th word of the id array; row `n` of the result is the row of a 1000 × 256 table at that
  id. The id is taken modulo 1000 so that the lookup is a total function of any id array; under the precondition every
  id is below 1000 and the reduction changes nothing.
-/
import Idealize.ShloMosaic.PureOps.Ideal
import Idealize.ShloMosaic.Lib.ValueIdx

namespace Cert.Lookup

open Idealize.ShloMosaic Idealize.ShloMosaic.ValueIdx

/-- Edge `n`'s type id, as a row number of the table. -/
def typeId (ids : IVec ⟨1, ![1000000]⟩ 32) (n : Fin 1000000) : Fin 1000 :=
  ⟨(ids (ix1 n)).toNat % 1000, Nat.mod_lt _ (by decide)⟩

/-- For an id below 1000 the row number is the id. -/
theorem typeId_val (ids : IVec ⟨1, ![1000000]⟩ 32) (n : Fin 1000000) (h : (ids (ix1 n)).toNat < 1000) :
    (typeId ids n).val = (ids (ix1 n)).toNat := Nat.mod_eq_of_lt h

/-- And the id word is that row number as a 32-bit word. -/
theorem word_eq (ids : IVec ⟨1, ![1000000]⟩ 32) (n : Fin 1000000) (h : (ids (ix1 n)).toNat < 1000) :
    ids (ix1 n) = BitVec.ofNat 32 (typeId ids n).val := by
  apply BitVec.eq_of_toNat_eq
  rw [typeId_val ids n h, BitVec.toNat_ofNat, Nat.mod_eq_of_lt (ids (ix1 n)).isLt]

/-- The lookup: entry `(n, q)` is the table's entry `(typeId n, q)`. -/
def lookup (ids : IVec ⟨1, ![1000000]⟩ 32) (T : (⟨2, ![1000, 256]⟩ : Shape).Idx → EReal) :
    (⟨2, ![1000000, 256]⟩ : Shape).Idx → EReal :=
  fun i => T (ix2 (typeId ids (i 0)) (i 1))

end Cert.Lookup
-- ==== Proof.OutputArray.lean ====
/-
  The kernel's result array, from what each grid point writes back.

  Point `t` of the 489 stages ids `2048 t … 2048 t + 2047` of the padded id array and both 1000 × 256 tables whole,
  and writes back the part of its 2048 × 256 result block that lies inside the 1 000 000 × 256 result: all of it for
  `t < 488`, the first 576 rows for `t = 488`. Row `r` of that part belongs to edge `n = 2048 t + r < 1 000 000`, whose
  staged id is the edge's own id (the padding lies past every edge), below 1000 by the precondition. The body's value
  there is `hi (id, q) + lo (id, q)` with `hi` the combined table and `lo = combined - combined`, which is `0` because the
  combined table is real: the written entry is the combined table's entry at the edge's id, the lookup. Every row of
  the result lies in the block of point `row / 2048`, so the array after the run is the lookup everywhere.
-/
import proofs.«411690_j30623116821332_3_alg».proof.Proof.Gen.KernelIdeal.Value
import proofs.«411690_j30623116821332_3_alg».proof.Proof.Body
import proofs.«411690_j30623116821332_3_alg».proof.Proof.HostArrays
import proofs.«411690_j30623116821332_3_alg».proof.Proof.OneHotSum
import proofs.«411690_j30623116821332_3_alg».proof.Proof.Lookup
import Idealize.ShloMosaic.Lib.Pipeline.Value
import Idealize.ShloMosaic.Lib.ValueIdx

set_option maxRecDepth 16384

noncomputable section

namespace Cert.KernelIdeal.OutputArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.OneHotSum

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The type ids, as launched. -/
abbrev ids (c : Dev nD) : IVec S1000000 32 := m ((c : Thread nD τ).loc main_arg0)

/-- The result: the lookup of the combined table at each edge's type id. -/
def result (c : Dev nD) : S1000000x256.Idx → EReal :=
  Cert.Lookup.lookup (ids m c) (HostArrays.combined m c)

/-- The printed index maps and the cut of the result's blocks, decided over the 489 points: the id window's block index
    is the point, both tables sit at block (0, 0), the result's block index is (point, 0), and the rows a point writes
    back are 2048 unless the block would pass row 1 000 000, then what is left. -/
theorem idx_facts : ∀ t : Fin cfg0.N,
    win0_0.index t (0 : Fin 1) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_3.xsize (grid0.coords t) (0 : Fin 2) = (if (t.val + 1) * 2048 ≤ 1000000 then 2048 else 1000000 - t.val * 2048)
    ∧ win0_3.xsize (grid0.coords t) (1 : Fin 2) = 256 :=
  (by decide +kernel : ∀ t : Fin grid0.N, _)

/-- The padded id array below row 1 000 000 is the id array. -/
theorem pad_ids_apply (x : IVec S1000000 32) (v : S_.Idx → BitVec 32) (j : S1001472.Idx) (h : (j 0).val < 1000000) :
    pad S1001472 ![0] ![1472] ![0] x v pads_S1000000_S1001472_014720 h_S_ j = x (ix1 ⟨(j 0).val, h⟩) := by
  unfold pad
  rw [dif_pos (fun a => by
    match a with
    | ⟨0, _⟩ =>
      show 0 ≤ (j 0).val ∧ ((j 0).val - 0) % (0 + 1) = 0 ∧ ((j 0).val - 0) / (0 + 1) < 1000000
      omega)]
  congr 1
  funext a
  match a with
  | ⟨0, _⟩ =>
    apply Fin.ext
    show ((j 0).val - 0) / (0 + 1) = (j 0).val
    omega

/-- WHAT POINT `t` WRITES BACK is its block of the lookup. -/
theorem flushed_eq (c : Dev nD) (hids : ∀ n : S1000000.Idx, (ids m c n).toNat < 1000)
    (hreal : ∀ j : S1000x256.Idx, IsReal (HostArrays.combined m c j)) (t : Fin cfg0.N) :
    (dats m 0 c).flushed 3 t = ((cfg0.win 3).blk t).view.read (Elt Ideal) (result m c) := by
  rw [flushed3]
  unfold out0_3
  rw [View.canon_unit_zero hz2]
  simp only [View.ld_unit_zero (S := S2048) hz1, View.ld_unit_zero (S := S1000x256) hz2]
  obtain ⟨e0, e10, e11, e20, e21, e30, e31, ex0, ex1⟩ := idx_facts t
  funext j
  have hj0 : (j 0).val < win0_3.xsize (grid0.coords t) (0 : Fin 2) := (j 0).isLt
  have hj1 : (j 1).val < win0_3.xsize (grid0.coords t) (1 : Fin 2) := (j 1).isLt
  have hrow : t.val * 2048 + (j 0).val < 1000000 := by rw [ex0] at hj0; split at hj0 <;> omega
  have hp : (j 0).val < 2048 := by rw [ex0] at hj0; split at hj0 <;> omega
  have hq : (j 1).val < 256 := by rw [ex1] at hj1; exact hj1
  -- the edge, the row and column inside the block, and the edge's type id
  let n : Fin 1000000 := ⟨t.val * 2048 + (j 0).val, hrow⟩
  let p : Fin 2048 := ⟨(j 0).val, hp⟩
  let q : Fin 256 := ⟨(j 1).val, hq⟩
  let k₀ : Fin 1000 := Cert.Lookup.typeId (ids m c) n
  -- the staged id of row `p` is edge `n`'s id: its position in the padded array is below 1 000 000
  have hk : iblk m c 0 t (ix1 p) = BitVec.ofNat 32 k₀.val := by
    show V m c main_v11 (((cfg0.win 0).blk t).view.emb (ix1 p)) = _
    have hemb : (((cfg0.win 0).blk t).view.emb (ix1 p) 0).val = t.val * 2048 + (j 0).val := by
      show win0_0.index t (0 : Fin 1) * 2048 + 1 * (j 0).val = _
      rw [e0]; omega
    rw [HostArrays.V_ids m c, pad_ids_apply _ _ _ (by rw [hemb]; exact hrow)]
    have hn : (⟨(((cfg0.win 0).blk t).view.emb (ix1 p) 0).val, by rw [hemb]; exact hrow⟩ : Fin 1000000) = n := Fin.ext hemb
    rw [hn]
    exact Cert.Lookup.word_eq (ids m c) n (hids (ix1 n))
  -- the first staged table is the combined table (a narrowing is the identity on extended reals)
  have h1 : (iblk m c 1 t (ix2 k₀ q) : EReal) = HostArrays.combined m c (ix2 k₀ q) := by
    show V m c main_v12 (((cfg0.win 1).blk t).view.emb (ix2 k₀ q)) = _
    have hemb : ((cfg0.win 1).blk t).view.emb (ix2 k₀ q) = ix2 k₀ q := by
      funext a; apply Fin.ext
      match a with
      | ⟨0, _⟩ => show win0_1.index t (0 : Fin 2) * 1000 + 1 * k₀.val = k₀.val; rw [e10]; omega
      | ⟨1, _⟩ => show win0_1.index t (1 : Fin 2) * 256 + 1 * q.val = q.val; rw [e11]; omega
    rw [hemb, HostArrays.V_hi m c]
    rfl
  -- the second is `combined - combined`, zero at a real entry
  have h2 : (iblk m c 2 t (ix2 k₀ q) : EReal) = (0 : EReal) := by
    show V m c main_v15 (((cfg0.win 2).blk t).view.emb (ix2 k₀ q)) = _
    have hemb : ((cfg0.win 2).blk t).view.emb (ix2 k₀ q) = ix2 k₀ q := by
      funext a; apply Fin.ext
      match a with
      | ⟨0, _⟩ => show win0_2.index t (0 : Fin 2) * 1000 + 1 * k₀.val = k₀.val; rw [e20]; omega
      | ⟨1, _⟩ => show win0_2.index t (1 : Fin 2) * 256 + 1 * q.val = q.val; rw [e21]; omega
    rw [hemb, HostArrays.V_lo m c]
    show HostArrays.combined m c (ix2 k₀ q) - HostArrays.combined m c (ix2 k₀ q) = 0
    exact (hreal _).sub_self
  -- where the written entry sits in the result array
  have hemb3 : ((cfg0.win 3).blk t).view.emb j = ix2 n q := by
    funext a; apply Fin.ext
    match a with
    | ⟨0, _⟩ => show win0_3.index t (0 : Fin 2) * 2048 + 1 * (j 0).val = t.val * 2048 + (j 0).val; rw [e30]; omega
    | ⟨1, _⟩ => show win0_3.index t (1 : Fin 2) * 256 + 1 * (j 1).val = (j 1).val; rw [e31]; omega
  have hx : (cfg0.win 3).xinj (grid0.coords t) j = ix2 p q :=
    funext fun a => by match a with | ⟨0, _⟩ => rfl | ⟨1, _⟩ => rfl
  refine (show (cfg0.win 3).cut (grid0.coords t) (k0_pay1 (F := Ideal) (iblk m c 0 t) (iblk m c 1 t) (iblk m c 2 t)) j
      = k0_pay1 (F := Ideal) (iblk m c 0 t) (iblk m c 1 t) (iblk m c 2 t) (ix2 p q) from
        congrArg (k0_pay1 (F := Ideal) (iblk m c 0 t) (iblk m c 1 t) (iblk m c 2 t)) hx).trans ?_
  refine (Body.pay_apply (iblk m c 0 t) (iblk m c 1 t) (iblk m c 2 t) p q k₀ hk).trans ?_
  show _ = Cert.Lookup.lookup (ids m c) (HostArrays.combined m c) (((cfg0.win 3).blk t).view.emb j)
  rw [hemb3, h1, h2, add_zero]
  rfl

/-- An index of the result is in point `t`'s block iff, on each axis, it is among the coordinates the point writes back. -/
theorem mem_blk (t : Fin cfg0.N) (i : S1000000x256.Idx) :
    i ∈ ((cfg0.win 3).blk t).view.set ↔ ∀ a : Fin 2, win0_3.index t a * S2048x256.size a ≤ (i a).val
      ∧ (i a).val < win0_3.index t a * S2048x256.size a + win0_3.xsize (grid0.coords t) a := by
  show i ∈ ((View.whole main_v16).slice (win0_3.rect t)).set ↔ _
  rw [View.set_slice_whole, Rect.mem_set_unit]
  exact Iff.rfl

/-- Every index of the result is in the block of the point `row / 2048`. -/
theorem cover (i : S1000000x256.Idx) :
    ∃ t : Fin cfg0.N, (cfg0.win 3).flush t = true ∧ i ∈ ((cfg0.win 3).blk t).view.set := by
  have hi0 : (i 0).val < 1000000 := (i 0).isLt
  have hi1 : (i 1).val < 256 := (i 1).isLt
  have hlt : (i 0).val / 2048 < cfg0.N := by
    show (i 0).val / 2048 < grid0.N
    rw [N_0]; omega
  obtain ⟨e0, e10, e11, e20, e21, e30, e31, ex0, ex1⟩ := idx_facts ⟨(i 0).val / 2048, hlt⟩
  refine ⟨⟨(i 0).val / 2048, hlt⟩, flush0_3 _, (mem_blk _ i).mpr fun a => ?_⟩
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048
          + win0_3.xsize (grid0.coords ⟨(i 0).val / 2048, hlt⟩) (0 : Fin 2)
    rw [e30, ex0]
    show (i 0).val / 2048 * 2048 ≤ (i 0).val ∧ (i 0).val < (i 0).val / 2048 * 2048
      + (if ((i 0).val / 2048 + 1) * 2048 ≤ 1000000 then 2048 else 1000000 - (i 0).val / 2048 * 2048)
    split <;> omega
  | ⟨1, _⟩ =>
    show win0_3.index ⟨(i 0).val / 2048, hlt⟩ (1 : Fin 2) * 256 ≤ (i 1).val
      ∧ (i 1).val < win0_3.index ⟨(i 0).val / 2048, hlt⟩ (1 : Fin 2) * 256
          + win0_3.xsize (grid0.coords ⟨(i 0).val / 2048, hlt⟩) (1 : Fin 2)
    rw [e31, ex1]
    omega

/-- THE RESULT ARRAY after the run is the lookup. -/
theorem final (c : Dev nD) (hids : ∀ n : S1000000.Idx, (ids m c n).toNat < 1000)
    (hreal : ∀ j : S1000x256.Idx, IsReal (HostArrays.combined m c j)) :
    (dats m 0 c).arrAt 3 cfg0.N = result m c :=
  (dats m 0 c).arrAt_eq_of_cover 3 (result m c) (fun t _ => flushed_eq m c hids hreal t) cover

/-- The kernel's run: it terminates with the result array at the lookup and the arguments unchanged, when every id is
    below 1000 and the combined table is real. -/
theorem run (hids : ∀ (c : Dev nD) (n : S1000000.Idx), (ids m c n).toNat < 1000)
    (hreal : ∀ (c : Dev nD) (j : S1000x256.Idx), IsReal (HostArrays.combined m c j)) :
    θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hids c) (hreal c)), (h c).2⟩) (run_blocks m ρ)

end Cert.KernelIdeal.OutputArray

end
-- ==== Proof.RowGather.lean ====
/-
  A row gather read at an index.

  `table[idx]` for a table of `N` rows of `D` entries and a column of `R` row numbers is a gather whose first operand
  axis is collapsed and indexed by the start index, whose second operand axis is carried whole as the result's second
  axis, and whose start indices are an `[R, 1]` column. Entry `(r, q)` of the result is the table's entry `(k, q)`
  where `k` is the start index of row `r` read as a signed integer and clamped into `[0, N - 1]`.
-/
import Idealize.ShloMosaic.PureOps
import Idealize.ShloMosaic.Lib.ValueIdx

namespace Cert.RowGather

open Idealize.ShloMosaic Idealize.ShloMosaic.ValueIdx

variable {α : Type}

/-- The dimension numbers of a row gather, whatever the batching list of the start indices and the slice sizes its
    well-formedness admits. -/
abbrev rowDims (N D R : Nat) (sb : List (Fin 2)) (ss : Fin 2 → Nat)
    (wf : GatherDims.WF ⟨2, ![N, D]⟩ ⟨2, ![R, 1]⟩ ⟨2, ![R, D]⟩ [1] [0] [] [0] sb 1 ss) :
    GatherDims ⟨2, ![N, D]⟩ ⟨2, ![R, 1]⟩ ⟨2, ![R, D]⟩ where
  offsetDims := [1]
  collapsedSliceDims := [0]
  operandBatchingDims := []
  startIndicesBatchingDims := sb
  startIndexMap := [0]
  indexVectorDim := 1
  sliceSizes := ss
  wf := wf

/-- On the row axis the operand index is the clamped start index of the result's row. -/
theorem operandIdx_row {N D R w : Nat} (sb : List (Fin 2)) (ss : Fin 2 → Nat)
    (wf : GatherDims.WF ⟨2, ![N, D]⟩ ⟨2, ![R, 1]⟩ ⟨2, ![R, D]⟩ [1] [0] [] [0] sb 1 ss)
    (idx : IVec ⟨2, ![R, 1]⟩ w) (r : Fin R) (q : Fin D) :
    ((rowDims N D R sb ss wf).operandIdx (ix2 r q) idx 0 : Nat) = min (idx (ix2 r (0 : Fin 1))).toInt.toNat (N - 1) := by
  show (rowDims N D R sb ss wf).start (ix2 r q) idx 0 + (rowDims N D R sb ss wf).batchCoord (ix2 r q) 0
      + (rowDims N D R sb ss wf).offCoord (ix2 r q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hsl : ss 0 = 1 := (rowDims N D R sb ss wf).slice_collapsed 0 (List.mem_singleton.mpr rfl)
  unfold GatherDims.start
  rw [dif_pos (show (0 : Fin 2) ∈ (rowDims N D R sb ss wf).startIndexMap from List.mem_singleton.mpr rfl)]
  have hsi : (rowDims N D R sb ss wf).siIdx (ix2 r q) ⟨List.idxOf (0 : Fin 2) (rowDims N D R sb ss wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  show min _ (N - ss 0) = _
  rw [hsl]

/-- On the column axis the operand index is the result's column. -/
theorem operandIdx_col {N D R w : Nat} (sb : List (Fin 2)) (ss : Fin 2 → Nat)
    (wf : GatherDims.WF ⟨2, ![N, D]⟩ ⟨2, ![R, 1]⟩ ⟨2, ![R, D]⟩ [1] [0] [] [0] sb 1 ss)
    (idx : IVec ⟨2, ![R, 1]⟩ w) (r : Fin R) (q : Fin D) :
    ((rowDims N D R sb ss wf).operandIdx (ix2 r q) idx 1 : Nat) = q.val := by
  show (rowDims N D R sb ss wf).start (ix2 r q) idx 1 + (rowDims N D R sb ss wf).batchCoord (ix2 r q) 1
      + (rowDims N D R sb ss wf).offCoord (ix2 r q) 1 = _
  rw [GatherDims.batchCoord_eq_zero _ _ _ List.not_mem_nil]
  unfold GatherDims.start
  rw [dif_neg (show (1 : Fin 2) ∉ (rowDims N D R sb ss wf).startIndexMap from
    fun h => Nat.one_ne_zero (congrArg Fin.val (List.mem_singleton.mp h)))]
  simp only [Nat.add_zero, Nat.zero_add]
  unfold GatherDims.offCoord
  rw [dif_pos (show (1 : Fin 2) ∈ (rowDims N D R sb ss wf).sKept from
    (GatherDims.mem_sKept _ _).mpr ⟨fun h => Nat.one_ne_zero (congrArg Fin.val (List.mem_singleton.mp h)), List.not_mem_nil⟩)]
  rfl

/-- The result's entry `(r, q)` reads the operand at row `clamp (idx (r, 0))`, column `q`. -/
theorem gather_rows_apply {N D R w : Nat} (d : GatherDims ⟨2, ![N, D]⟩ ⟨2, ![R, 1]⟩ ⟨2, ![R, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![R, 1]⟩ w) (r : Fin R) (q : Fin D) (hN : 0 < N) :
    Host.gather d x idx (ix2 r q)
      = x (ix2 ⟨min (idx (ix2 r (0 : Fin 1))).toInt.toNat (N - 1), by omega⟩ q) := by
  obtain ⟨od, cd, ob, sb, sim, ivd, ss, wf⟩ := d
  simp only at hoff hcoll hob hsim hivd
  subst hoff hcoll hob hsim hivd
  unfold Host.gather
  congr 1
  funext a
  apply Fin.ext
  match a with
  | ⟨0, _⟩ => exact operandIdx_row sb ss wf idx r q
  | ⟨1, _⟩ => exact operandIdx_col sb ss wf idx r q

end Cert.RowGather
-- ==== Proof.RefLookup.lean ====
/-
  The reference's result is the lookup of the combined table.

  The reference wraps a negative type id by adding 1000, gathers the edge-type table's row and the attribute sums' row
  at the wrapped id (a row gather clamps the id into the table), and adds the two rows. For an id in `[0, 1000)` the
  sign test fails, the wrap leaves the id alone, and the clamp is the identity: both gathers read row `id`, and their
  sum is the entry of `edge-type table + attribute sums` at that row.
-/
import proofs.«411690_j30623116821332_3_alg».proof.Proof.Gen.ReferenceIdeal.Read
import proofs.«411690_j30623116821332_3_alg».proof.Proof.RowGather
import proofs.«411690_j30623116821332_3_alg».proof.Proof.Lookup
import Idealize.ShloMosaic.Lib.ValueIdx
import Idealize.ShloMosaic.Lib.Affine

noncomputable section

namespace Cert.ReferenceIdeal.RefLookup

open Cert.ReferenceIdeal Cert.ReferenceIdeal.Gen Cert.ReferenceIdeal.Read
open Idealize.ShloMosaic Idealize.ShloMosaic.ValueIdx

/-- A word below 1000 is not negative as a signed word, and reads the same signed and unsigned. -/
theorem toInt_of_small (w : BitVec 32) (h : w.toNat < 1000) : w.toInt = (w.toNat : Int) := by
  rw [BitVec.toInt_eq_toNat_cond, if_pos (by omega)]

/-- The wrapped id of an id below 1000 is the id. -/
theorem wrap_id (w : BitVec 32) (h : w.toNat < 1000) :
    Scalar.select (IntOp.cmpi .slt w 0#32) (IntOp.addi w 1000#32) w = w := by
  have hn : ¬ IntOp.cmpi .slt w 0#32 = 1#1 := fun e => by
    have := IntOp.cmpi_slt.1 e
    rw [toInt_of_small w h] at this
    have z : (0#32 : BitVec 32).toInt = 0 := by decide
    rw [z] at this
    omega
  rw [eq_zero_of_ne_one hn, select_zero]

/-- The row the first gather's start-index column names for edge `n`: the wrapped id. -/
theorem start15 (x0 : IVec S1000000 32) (n : Fin 1000000) (h : (x0 (ix1 n)).toNat < 1000) :
    val_main_v15 (F := Ideal) x0 (ix2 n (0 : Fin 1)) = x0 (ix1 n) := by
  rw [val_main_v15_apply, val_main_v14_apply, val_main_v11_apply, val_main_v13_apply, val_main_v10_apply, val_main_v12_apply,
    val_main_c_1_apply, val_main_c_2_apply]
  have e : idx_main_v15 (ix2 n (0 : Fin 1)) = ix1 n := funext fun a => by match a with | ⟨0, _⟩ => rfl
  rw [e]
  exact wrap_id _ h

/-- The same for the second gather's column. -/
theorem start22 (x0 : IVec S1000000 32) (n : Fin 1000000) (h : (x0 (ix1 n)).toNat < 1000) :
    val_main_v22 (F := Ideal) x0 (ix2 n (0 : Fin 1)) = x0 (ix1 n) := by
  rw [val_main_v22_apply, val_main_v21_apply, val_main_v18_apply, val_main_v20_apply, val_main_v17_apply, val_main_v19_apply,
    val_main_c_3_apply, val_main_c_4_apply]
  have e : idx_main_v22 (ix2 n (0 : Fin 1)) = ix1 n := funext fun a => by match a with | ⟨0, _⟩ => rfl
  rw [e]
  exact wrap_id _ h

/-- The clamp of an id below 1000 into `[0, 999]` is the id's row number. -/
theorem clamp_row (x0 : IVec S1000000 32) (n : Fin 1000000) (h : (x0 (ix1 n)).toNat < 1000) :
    min (x0 (ix1 n)).toInt.toNat (1000 - 1) = (Cert.Lookup.typeId x0 n).val := by
  rw [Cert.Lookup.typeId_val x0 n h, toInt_of_small _ h, Int.toNat_natCast]
  omega

/-- A start word that is edge `n`'s id names, clamped, that id's row. -/
theorem row_of_start (x0 : IVec S1000000 32) (n : Fin 1000000) (h : (x0 (ix1 n)).toNat < 1000) (w : BitVec 32)
    (hw : w = x0 (ix1 n)) (hlt : min w.toInt.toNat (1000 - 1) < 1000) :
    (⟨min w.toInt.toNat (1000 - 1), hlt⟩ : Fin 1000) = Cert.Lookup.typeId x0 n := by
  subst hw
  exact Fin.ext (clamp_row x0 n h)

/-- THE REFERENCE'S RESULT: the lookup, at each edge's type id, of the edge-type table plus the attribute sums. -/
theorem result_eq (x0 : IVec S1000000 32) (x1 : FVec Ideal S200000x256 .f32) (x2 : FVec Ideal S1000x256 .f32)
    (x3 x4 : IVec S50000 32) (hids : ∀ n : S1000000.Idx, (x0 n).toNat < 1000) :
    val_main_v24 (F := Ideal) x0 x1 x2 x3 x4
      = Cert.Lookup.lookup x0 (addf x2 (val_main_v9 (F := Ideal) x1 x3 x4)) := by
  funext i
  obtain ⟨n, q, rfl⟩ : ∃ (n : Fin 1000000) (q : Fin 256), i = ix2 n q := ⟨i 0, i 1, eq_ix2 i⟩
  have hn := hids (ix1 n)
  rw [val_main_v24_apply]
  unfold val_main_v16 val_main_v23
  rw [Cert.RowGather.gather_rows_apply gather_S1000x256_S1000000x1_S1000000x256_1_0_n_n_0_1_1256 rfl rfl rfl rfl rfl _ _ n q (by decide),
    Cert.RowGather.gather_rows_apply gather_S1000x256_S1000000x1_S1000000x256_1_0_n_n_0_1_1256 rfl rfl rfl rfl rfl _ _ n q (by decide)]
  have r1 : (⟨min (val_main_v15 (F := Ideal) x0 (ix2 n (0 : Fin 1))).toInt.toNat (1000 - 1), by omega⟩ : Fin 1000)
      = Cert.Lookup.typeId x0 n := row_of_start x0 n hn _ (start15 x0 n hn) _
  have r2 : (⟨min (val_main_v22 (F := Ideal) x0 (ix2 n (0 : Fin 1))).toInt.toNat (1000 - 1), by omega⟩ : Fin 1000)
      = Cert.Lookup.typeId x0 n := row_of_start x0 n hn _ (start22 x0 n hn) _
  rw [r1, r2]
  rfl

end Cert.ReferenceIdeal.RefLookup

end
-- ==== Proof.lean ====
/-
  An embedding lookup computed as a one-hot matrix product, against the lookup itself.

  Both programs first form, on the host, the per-type attribute sums (attribute rows gathered at the attribute ids and
  added into their segments) and so the COMBINED table `edge-type table + attribute sums`, 1000 rows of 256. The
  reference then reads, for each of the 1 000 000 edges, the edge-type row and the attribute-sum row at the edge's type
  id and adds them. The kernel splits the combined table into its narrowing `hi` and the narrowing `lo` of the remainder
  `combined - hi`, and for each block of 2048 edges multiplies the block's one-hot matrix (`1` where the column is the
  edge's id) with `hi` and with `lo`, adding the two products.

  On the extended reals a change of float format is the identity, so `hi` is the combined table and `lo` is
  `combined - combined`; a one-hot row times a column is the column's entry at the hot position (`0 * x = 0`, `1 * x = x`,
  one term survives); so the kernel's entry for edge `n` is `combined (id n) + (combined (id n) - combined (id n))`.
  That is `combined (id n)`, the reference's entry, exactly when the combined entry is a real number — which the
  precondition's finiteness of the two float tables gives, since an entry is a finite sum of table entries whatever the
  attribute and segment ids are — and when the one-hot row has a hot position at all, that is when the id lies in
  `[0, 1000)`: outside it the kernel's row is all zeros while the reference's gather wraps or clamps the id into the
  table. The precondition states that range.

  The three frames and the kernel's run block by block are generated; written by hand are the row gather read at an
  index, the one-hot algebra, the body's payload at an entry, the host arrays as terms, the passage from the blocks (the
  last one cut at row 1 000 000) to the whole array, the reading of the precondition, and the reference as the lookup.
-/
import proofs.«411690_j30623116821332_3_alg».proof.Defs
import proofs.«411690_j30623116821332_3_alg».proof.Proof.Gen.Kernel
import proofs.«411690_j30623116821332_3_alg».proof.Proof.Gen.Kernel.Skeleton
import proofs.«411690_j30623116821332_3_alg».proof.Proof.Gen.Kernel.Launch
import proofs.«411690_j30623116821332_3_alg».proof.Proof.Gen.Kernel.Points
import proofs.«411690_j30623116821332_3_alg».proof.Proof.Gen.Kernel.Frame
import proofs.«411690_j30623116821332_3_alg».proof.Proof.Gen.KernelIdeal
import proofs.«411690_j30623116821332_3_alg».proof.Proof.Gen.KernelIdeal.Skeleton
import proofs.«411690_j30623116821332_3_alg».proof.Proof.Gen.KernelIdeal.Launch
import proofs.«411690_j30623116821332_3_alg».proof.Proof.Gen.KernelIdeal.Points
import proofs.«411690_j30623116821332_3_alg».proof.Proof.Gen.KernelIdeal.Frame
import proofs.«411690_j30623116821332_3_alg».proof.Proof.Gen.ReferenceIdeal
import proofs.«411690_j30623116821332_3_alg».proof.Proof.Gen.Pre_finite_inputs
import proofs.«411690_j30623116821332_3_alg».proof.Proof.Gen.KernelIdeal.Value
import proofs.«411690_j30623116821332_3_alg».proof.Proof.Gen.ReferenceIdeal.Run
import proofs.«411690_j30623116821332_3_alg».proof.Proof.Gen.ReferenceIdeal.Read
import proofs.«411690_j30623116821332_3_alg».proof.Proof.PreDecode
import proofs.«411690_j30623116821332_3_alg».proof.Proof.CombinedReal
import proofs.«411690_j30623116821332_3_alg».proof.Proof.OutputArray
import proofs.«411690_j30623116821332_3_alg».proof.Proof.RefLookup
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no launch: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the extended reals. -/
theorem preserves : Cert.preserves_Kernel_KernelIdeal := trivial

/-- Both programs end with the lookup of the combined table at each edge's type id. -/
theorem algebraic : Cert.algebraic_KernelIdeal_ReferenceIdeal := by
  intro m ρ m' ρ' hpre hagree
  have hdec := fun c => Cert.PreDecode.decode _ _ _ _ _ (hpre c)
  have hids : ∀ (c : Dev Cert.KernelIdeal.nD) (n : Cert.KernelIdeal.S1000000.Idx),
      (Cert.KernelIdeal.OutputArray.ids m c n).toNat < 1000 := fun c n => (hdec c).2.2 n
  have hreal : ∀ (c : Dev Cert.KernelIdeal.nD) (j : Cert.KernelIdeal.S1000x256.Idx),
      Cert.OneHotSum.IsReal (Cert.KernelIdeal.HostArrays.combined m c j) :=
    fun c j => Cert.KernelIdeal.CombinedReal.combined_real m c (hdec c).1 (hdec c).2.1 j
  refine ⟨fun c => Cert.KernelIdeal.OutputArray.result m c, Cert.KernelIdeal.OutputArray.run m ρ hids hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2]
  rw [Cert.ReferenceIdeal.RefLookup.result_eq _ _ _ _ _ (hids c)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
